-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S128x256 : Shape := ⟨2, ![128, 256]⟩
abbrev S256 : Shape := ⟨1, ![256]⟩
abbrev S256x64 : Shape := ⟨2, ![256, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S256x64 .f32) (main_arg6 : FVec F S256x64 .f32) (main_arg7 : FVec F S64 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x64 .f32 := Host.absf main_arg5
  let main_cst_6 : FVec F S_ .f32 := constant S_ .f32 0x7F800000#32
  let main_v20 : FVec F S256x64 .f32 := broadcastInDim S256x64 ![] bcast_S_S256x64 main_cst_6
  let main_v21 : IVec S256x64 1 := cmpf .olt main_v19 main_v20
  let main_c_7 : IVec S_ 1 := constantI S_ 1 1#1
  let main_v22 : IVec S_ 1 := (fun x v => Host.reduce IntOp.andi x v reducesTo_S256x64_S_d0_1 h_S_) main_v21 main_c_7
  let main_v23 : IVec S_ 1 := andi main_v18 main_v22
  let main_v24 : FVec F S256x64 .f32 := Host.absf main_arg6
  let main_cst_8 : FVec F S_ .f32 := constant S_ .f32 0x7F800000#32
  let main_v25 : FVec F S256x64 .f32 := broadcastInDim S256x64 ![] bcast_S_S256x64 main_cst_8
  let main_v26 : IVec S256x64 1 := cmpf .olt main_v24 main_v25
  let main_c_9 : IVec S_ 1 := constantI S_ 1 1#1
  let main_v27 : IVec S_ 1 := (fun x v => Host.reduce IntOp.andi x v reducesTo_S256x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S50000x128 .f32) (main_arg1 : IVec S2x600000 32) (main_arg2 : FVec F S128x256 .f32) (main_arg3 : FVec F S128x256 .f32) (main_arg4 : FVec F S256 .f32) (main_arg5 : FVec F S256x64 .f32) (main_arg6 : FVec F S256x64 .f32) (main_arg7 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S128x256 .f32 := Host.absf main_arg3
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_arg7 main_v13 main_v16
-- ==== Kernel.lean ====
abbrev S50000x128 : Shape := ⟨2, ![50000, 128]⟩
abbrev S2x600000 : Shape := ⟨2, ![2, 600000]⟩
abbrev S128x256 : Shape := ⟨2, ![128, 256]⟩
abbrev S256 : Shape := ⟨1, ![256]⟩
abbrev S256x64 : Shape := ⟨2, ![256, 64]⟩
abbrev S64 : Shape := ⟨1, ![64]⟩
abbrev S1x600000 : Shape := ⟨2, ![1, 600000]⟩
abbrev S600000 : Shape := ⟨1, ![600000]⟩
abbrev S_ : Shape := ⟨0, ![]⟩
abbrev S50000 : Shape := ⟨1, ![50000]⟩
abbrev S600000x1 : Shape := ⟨2, ![600000, 1]⟩
abbrev S50000x1 : Shape := ⟨2, ![50000, 1]⟩
abbrev S600000x128 : Shape := ⟨2, ![600000, 128]⟩
abbrev S1x256 : Shape := ⟨2, ![1, 256]⟩
abbrev S50000x256 : Shape := ⟨2, ![50000, 256]⟩
abbrev S2000x128 : Shape := ⟨2, ![2000, 128]⟩
abbrev S2000x256 : Shape := ⟨2, ![2000, 256]⟩
abbrev S600000x256 : Shape := ⟨2, ![600000, 256]⟩
abbrev S1x64 : Shape := ⟨2, ![1, 64]⟩
abbrev S50000x64 : Shape := ⟨2, ![50000, 64]⟩
abbrev S2000x64 : Shape := ⟨2, ![2000, 64]⟩

abbrev nBuf : Space → Nat
  | .hbm => 59
  | .vmem => 18
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x256, .f32⟩
  | .hbm, ⟨3, _⟩ => ⟨S128x256, .f32⟩
  | .hbm, ⟨4, _⟩ => ⟨S256, .f32⟩
  | .hbm, ⟨5, _⟩ => ⟨S256x64, .f32⟩
  | .hbm, ⟨6, _⟩ => ⟨S256x64, .f32⟩
  | .hbm, ⟨7, _⟩ => ⟨S64, .f32⟩
  | .hbm, ⟨8, _⟩ => ⟨S1x600000, .i32⟩
  | .hbm, ⟨9, _⟩ => ⟨S600000, .i32⟩
  | .hbm, ⟨10, _⟩ => ⟨S1x600000, .i32⟩
  | .hbm, ⟨11, _⟩ => ⟨S600000, .i32⟩
  | .hbm, ⟨12, _⟩ => ⟨S_, .f32⟩
  | .hbm, ⟨13, _⟩ => ⟨S600000, .f32⟩
  | .hbm, ⟨14, _⟩ => ⟨S_, .f32⟩
  | .hbm, ⟨15, _⟩ => ⟨S50000, .f32⟩
  | .hbm, ⟨16, _⟩ => ⟨S600000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000x1, .f32⟩
  | .hbm, ⟨25, _⟩ => ⟨S_, .i32⟩
  | .hbm, ⟨26, _⟩ => ⟨S600000, .i32⟩
  | .hbm, ⟨27, _⟩ => ⟨S600000, .i1⟩
  | .hbm, ⟨28, _⟩ => ⟨S_, .i32⟩
  | .hbm, ⟨29, _⟩ => ⟨S600000, .i32⟩
  | .hbm, ⟨30, _⟩ => ⟨S600000, .i32⟩
  | .hbm, ⟨31, _⟩ => ⟨S600000, .i32⟩
  | .hbm, ⟨32, _⟩ => ⟨S600000x1, .i32⟩
  | .hbm, ⟨33, _⟩ => ⟨S600000x128, .f32⟩
  | .hbm, ⟨34, _⟩ => ⟨S_, .f32⟩
  | .hbm, ⟨35, _⟩ => ⟨S50000x128, .f32⟩
  | .hbm, ⟨36, _⟩ => ⟨S600000x1, .i32⟩
  | .hbm, ⟨37, _⟩ => ⟨S50000x128, .f32⟩
  | .hbm, ⟨38, _⟩ => ⟨S50000x128, .f32⟩
  | .hbm, ⟨39, _⟩ => ⟨S50000x128, .f32⟩
  | .hbm, ⟨40, _⟩ => ⟨S1x256, .f32⟩
  | .hbm, ⟨41, _⟩ => ⟨S50000x256, .f32⟩
  | .hbm, ⟨42, _⟩ => ⟨S_, .i32⟩
  | .hbm, ⟨43, _⟩ => ⟨S600000, .i32⟩
  | .hbm, ⟨44, _⟩ => ⟨S600000, .i1⟩
  | .hbm, ⟨45, _⟩ => ⟨S_, .i32⟩
  | .hbm, ⟨46, _⟩ => ⟨S600000, .i32⟩
  | .hbm, ⟨47, _⟩ => ⟨S600000, .i32⟩
  | .hbm, ⟨48, _⟩ => ⟨S600000, .i32⟩
  | .hbm, ⟨49, _⟩ => ⟨S600000x1, .i32⟩
  | .hbm, ⟨50, _⟩ => ⟨S600000x256, .f32⟩
  | .hbm, ⟨51, _⟩ => ⟨S_, .f32⟩
  | .hbm, ⟨52, _⟩ => ⟨S50000x256, .f32⟩
  | .hbm, ⟨53, _⟩ => ⟨S600000x1, .i32⟩
  | .hbm, ⟨54, _⟩ => ⟨S50000x256, .f32⟩
  | .hbm, ⟨55, _⟩ => ⟨S50000x256, .f32⟩
  | .hbm, ⟨56, _⟩ => ⟨S50000x256, .f32⟩
  | .hbm, ⟨57, _⟩ => ⟨S1x64, .f32⟩
  | .hbm, ⟨58, _⟩ => ⟨S50000x64, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x256, .f32⟩
  | .local _ .vmem, ⟨5, _⟩ => ⟨S128x256, .f32⟩
  | .local _ .vmem, ⟨6, _⟩ => ⟨S1x256, .f32⟩
  | .local _ .vmem, ⟨7, _⟩ => ⟨S2000x256, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S256x64, .f32⟩
  | .local _ .vmem, ⟨14, _⟩ => ⟨S256x64, .f32⟩
  | .local _ .vmem, ⟨15, _⟩ => ⟨S1x64, .f32⟩
  | .local _ .vmem, ⟨16, _⟩ => ⟨S2000x64, .f32⟩
  | .local _ .vmem, ⟨17, _⟩ => ⟨S2000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_v13 : Ref sig .tc := ⟨.hbm, 26, rfl⟩
abbrev main_v14 : Ref sig .tc := ⟨.hbm, 27, rfl⟩
abbrev main_c_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_c_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  bcast_S50000_S50000x1_0 : S50000.BroadcastsInDim S50000x1 (![0] : Fin 1 → Fin S50000x1.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  shapeCasts_S256_S1x256 : S256.ShapeCasts S1x256
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  shapeCasts_S64_S1x64 : S64.ShapeCasts S1x64
  shapeCasts_S2000x256_S2000x256 : S2000x256.ShapeCasts S2000x256
  inb_S256x64_S256x64_0_0 : ∀ a, (![0, 0] : Fin 2 → Nat) a + S256x64.size a ≤ S256x64.size a
  h_S256x64 : 0 < S256x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  scatter_S50000_S600000x1_S600000_n_0_0_1_wf : ScatterDims.WF S50000 S600000x1 S600000 [] [0] [0] 1
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S2000x128_S128x256_S2000x256_1_0_0_1_n_n_wf : DotDims.WF S2000x128 S128x256 S2000x256 [1] [0] [0] [1] [] []
  gather_S50000x256_S600000x1_S600000x256_1_0_n_n_0_1_1256_wf : GatherDims.WF S50000x256 S600000x1 S600000x256 [1] [0] [] [0] [] 1 ![1, 256]
  scatter_S50000x256_S600000x1_S600000x256_1_0_0_1_wf : ScatterDims.WF S50000x256 S600000x1 S600000x256 [1] [0] [0] 1
  dot_S2000x256_S256x64_S2000x64_1_0_0_1_n_n_wf : DotDims.WF S2000x256 S256x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x256.size a ≤ S50000x256.size a
  hwx0_5 : ∀ i : grid0.Coords, EltTy.bits .f32 = 32 ∨ (Rect.block (s := S50000x256) S2000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S50000x256.size a
  hwx1_1 : ∀ i : grid1.Coords, EltTy.bits .f32 = 32 ∨ (Rect.block (s := S50000x256) S2000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x64.size a ≤ S256x64.size a
  hwx1_2 : ∀ i : grid1.Coords, EltTy.bits .f32 = 32 ∨ (Rect.block (s := S256x64) S256x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x64.size a ≤ S256x64.size a
  hwx1_3 : ∀ i : grid1.Coords, EltTy.bits .f32 = 32 ∨ (Rect.block (s := S256x64) S256x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x64.size a ≤ S50000x64.size a
  hwx1_5 : ∀ i : grid1.Coords, EltTy.bits .f32 = 32 ∨ (Rect.block (s := S50000x64) S2000x64.size (cc1_transform_5 i) (hinb1_5 i)).WholeWords (EltTy.packing .f32)

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S50000x256_S600000x1_S600000x256_1_0_n_n_0_1_1256 : GatherDims S50000x256 S600000x1 S600000x256 where
  offsetDims := [1]
  collapsedSliceDims := [0]
  operandBatchingDims := []
  startIndicesBatchingDims := []
  startIndexMap := [0]
  indexVectorDim := 1
  sliceSizes := ![1, 256]
  wf := gather_S50000x256_S600000x1_S600000x256_1_0_n_n_0_1_1256_wf
def scatter_S50000x256_S600000x1_S600000x256_1_0_0_1 : ScatterDims S50000x256 S600000x1 S600000x256 where
  updateWindowDims := [1]
  insertedWindowDims := [0]
  scatterDimsToOperandDims := [0]
  indexVectorDim := 1
  wf := scatter_S50000x256_S600000x1_S600000x256_1_0_0_1_wf
def dot_S2000x256_S256x64_S2000x64_1_0_0_1_n_n : DotDims S2000x256 S256x64 S2000x64 where
  lhsContracting := [1]
  rhsContracting := [0]
  lhsNonContracting := [0]
  rhsNonContracting := [1]
  lhsBatch := []
  rhsBatch := []
  wf := dot_S2000x256_S256x64_S2000x64_1_0_0_1_n_n_wf

abbrev win0_0 : Pipeline.Window sig grid0 :=
  Pipeline.Window.ofSpec (Memref.whole main_v24) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S2000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v38) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S256x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S256x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v39) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v40) S2000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S128x256 : Shape := ⟨2, ![128, 256]⟩
abbrev S256 : Shape := ⟨1, ![256]⟩
abbrev S256x64 : Shape := ⟨2, ![256, 64]⟩
abbrev S64 : Shape := ⟨1, ![64]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S50000 : Shape := ⟨1, ![50000]⟩
abbrev S50000x1 : Shape := ⟨2, ![50000, 1]⟩
abbrev S50000x256 : Shape := ⟨2, ![50000, 256]⟩
abbrev S1x256 : Shape := ⟨2, ![1, 256]⟩
abbrev S600000x256 : Shape := ⟨2, ![600000, 256]⟩
abbrev S50000x64 : Shape := ⟨2, ![50000, 64]⟩
abbrev S1x64 : Shape := ⟨2, ![1, 64]⟩

abbrev nBuf : Space → Nat
  | .hbm => 81
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x256, .f32⟩
  | .hbm, ⟨3, _⟩ => ⟨S128x256, .f32⟩
  | .hbm, ⟨4, _⟩ => ⟨S256, .f32⟩
  | .hbm, ⟨5, _⟩ => ⟨S256x64, .f32⟩
  | .hbm, ⟨6, _⟩ => ⟨S256x64, .f32⟩
  | .hbm, ⟨7, _⟩ => ⟨S64, .f32⟩
  | .hbm, ⟨8, _⟩ => ⟨S1x600000, .i32⟩
  | .hbm, ⟨9, _⟩ => ⟨S600000, .i32⟩
  | .hbm, ⟨10, _⟩ => ⟨S1x600000, .i32⟩
  | .hbm, ⟨11, _⟩ => ⟨S600000, .i32⟩
  | .hbm, ⟨12, _⟩ => ⟨S_, .i32⟩
  | .hbm, ⟨13, _⟩ => ⟨S600000, .i32⟩
  | .hbm, ⟨14, _⟩ => ⟨S600000, .i1⟩
  | .hbm, ⟨15, _⟩ => ⟨S_, .i32⟩
  | .hbm, ⟨16, _⟩ => ⟨S600000, .i32⟩
  | .hbm, ⟨17, _⟩ => ⟨S600000, .i32⟩
  | .hbm, ⟨18, _⟩ => ⟨S600000, .i32⟩
  | .hbm, ⟨19, _⟩ => ⟨S600000x1, .i32⟩
  | .hbm, ⟨20, _⟩ => ⟨S600000x128, .f32⟩
  | .hbm, ⟨21, _⟩ => ⟨S_, .f32⟩
  | .hbm, ⟨22, _⟩ => ⟨S50000x128, .f32⟩
  | .hbm, ⟨23, _⟩ => ⟨S600000x1, .i32⟩
  | .hbm, ⟨24, _⟩ => ⟨S50000x128, .f32⟩
  | .hbm, ⟨25, _⟩ => ⟨S_, .f32⟩
  | .hbm, ⟨26, _⟩ => ⟨S600000, .f32⟩
  | .hbm, ⟨27, _⟩ => ⟨S_, .f32⟩
  | .hbm, ⟨28, _⟩ => ⟨S50000, .f32⟩
  | .hbm, ⟨29, _⟩ => ⟨S600000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x128, .f32⟩
  | .hbm, ⟨36, _⟩ => ⟨S50000x128, .f32⟩
  | .hbm, ⟨37, _⟩ => ⟨S50000x256, .f32⟩
  | .hbm, ⟨38, _⟩ => ⟨S50000x256, .f32⟩
  | .hbm, ⟨39, _⟩ => ⟨S50000x256, .f32⟩
  | .hbm, ⟨40, _⟩ => ⟨S1x256, .f32⟩
  | .hbm, ⟨41, _⟩ => ⟨S50000x256, .f32⟩
  | .hbm, ⟨42, _⟩ => ⟨S50000x256, .f32⟩
  | .hbm, ⟨43, _⟩ => ⟨S_, .f32⟩
  | .hbm, ⟨44, _⟩ => ⟨S50000x256, .f32⟩
  | .hbm, ⟨45, _⟩ => ⟨S50000x256, .f32⟩
  | .hbm, ⟨46, _⟩ => ⟨S1x600000, .i32⟩
  | .hbm, ⟨47, _⟩ => ⟨S600000, .i32⟩
  | .hbm, ⟨48, _⟩ => ⟨S1x600000, .i32⟩
  | .hbm, ⟨49, _⟩ => ⟨S600000, .i32⟩
  | .hbm, ⟨50, _⟩ => ⟨S_, .i32⟩
  | .hbm, ⟨51, _⟩ => ⟨S600000, .i32⟩
  | .hbm, ⟨52, _⟩ => ⟨S600000, .i1⟩
  | .hbm, ⟨53, _⟩ => ⟨S_, .i32⟩
  | .hbm, ⟨54, _⟩ => ⟨S600000, .i32⟩
  | .hbm, ⟨55, _⟩ => ⟨S600000, .i32⟩
  | .hbm, ⟨56, _⟩ => ⟨S600000, .i32⟩
  | .hbm, ⟨57, _⟩ => ⟨S600000x1, .i32⟩
  | .hbm, ⟨58, _⟩ => ⟨S600000x256, .f32⟩
  | .hbm, ⟨59, _⟩ => ⟨S_, .f32⟩
  | .hbm, ⟨60, _⟩ => ⟨S50000x256, .f32⟩
  | .hbm, ⟨61, _⟩ => ⟨S600000x1, .i32⟩
  | .hbm, ⟨62, _⟩ => ⟨S50000x256, .f32⟩
  | .hbm, ⟨63, _⟩ => ⟨S_, .f32⟩
  | .hbm, ⟨64, _⟩ => ⟨S600000, .f32⟩
  | .hbm, ⟨65, _⟩ => ⟨S_, .f32⟩
  | .hbm, ⟨66, _⟩ => ⟨S50000, .f32⟩
  | .hbm, ⟨67, _⟩ => ⟨S600000x1, .i32⟩
  | .hbm, ⟨68, _⟩ => ⟨S50000, .f32⟩
  | .hbm, ⟨69, _⟩ => ⟨S_, .f32⟩
  | .hbm, ⟨70, _⟩ => ⟨S50000, .f32⟩
  | .hbm, ⟨71, _⟩ => ⟨S50000, .f32⟩
  | .hbm, ⟨72, _⟩ => ⟨S50000x1, .f32⟩
  | .hbm, ⟨73, _⟩ => ⟨S50000x256, .f32⟩
  | .hbm, ⟨74, _⟩ => ⟨S50000x256, .f32⟩
  | .hbm, ⟨75, _⟩ => ⟨S50000x64, .f32⟩
  | .hbm, ⟨76, _⟩ => ⟨S50000x64, .f32⟩
  | .hbm, ⟨77, _⟩ => ⟨S50000x64, .f32⟩
  | .hbm, ⟨78, _⟩ => ⟨S1x64, .f32⟩
  | .hbm, ⟨79, _⟩ => ⟨S50000x64, .f32⟩
  | .hbm, ⟨80, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_c_4 : Ref sig .tc := ⟨.hbm, 50, rfl⟩
abbrev main_v34 : Ref sig .tc := ⟨.hbm, 51, rfl⟩
abbrev main_v35 : Ref sig .tc := ⟨.hbm, 52, rfl⟩
abbrev main_c_5 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_6 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_7 : Ref sig .tc := ⟨.hbm, 63, rfl⟩
abbrev main_v44 : Ref sig .tc := ⟨.hbm, 64, rfl⟩
abbrev main_cst_8 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_9 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S50000_S600000x1_S600000_n_0_0_1_wf : ScatterDims.WF S50000 S600000x1 S600000 [] [0] [0] 1
  dot_S50000x128_S128x256_S50000x256_1_0_0_1_n_n_wf : DotDims.WF S50000x128 S128x256 S50000x256 [1] [0] [0] [1] [] []
  gather_S50000x256_S600000x1_S600000x256_1_0_n_n_0_1_1256_wf : GatherDims.WF S50000x256 S600000x1 S600000x256 [1] [0] [] [0] [] 1 ![1, 256]
  scatter_S50000x256_S600000x1_S600000x256_1_0_0_1_wf : ScatterDims.WF S50000x256 S600000x1 S600000x256 [1] [0] [0] 1
  dot_S50000x256_S256x64_S50000x64_1_0_0_1_n_n_wf : DotDims.WF S50000x256 S256x64 S50000x64 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S600000x1_S600000x256_1_0_n_n_0_1_1256 : GatherDims S50000x256 S600000x1 S600000x256 where
  offsetDims := [1]
  collapsedSliceDims := [0]
  operandBatchingDims := []
  startIndicesBatchingDims := []
  startIndexMap := [0]
  indexVectorDim := 1
  sliceSizes := ![1, 256]
  wf := gather_S50000x256_S600000x1_S600000x256_1_0_n_n_0_1_1256_wf
def scatter_S50000x256_S600000x1_S600000x256_1_0_0_1 : ScatterDims S50000x256 S600000x1 S600000x256 where
  updateWindowDims := [1]
  insertedWindowDims := [0]
  scatterDimsToOperandDims := [0]
  indexVectorDim := 1
  wf := scatter_S50000x256_S600000x1_S600000x256_1_0_0_1_wf
def dot_S50000x256_S256x64_S50000x64_1_0_0_1_n_n : DotDims S50000x256 S256x64 S50000x64 where
  lhsContracting := [1]
  rhsContracting := [0]
  lhsNonContracting := [0]
  rhsNonContracting := [1]
  lhsBatch := []
  rhsBatch := []
  wf := dot_S50000x256_S256x64_S50000x64_1_0_0_1_n_n_wf

class Facts : Prop extends Facts₀ where

variable [Facts]
-- ==== Proof.LibRowOps.lean ====
/-
  General lemmas: a row-wise kernel's vector operations read at an index, at the ideal instance.

  * a plain matrix product `[M,K]·[K,N]` into a zero accumulator, at `(p, c)`, is `Σ k, lhs (p, k) · rhs (k, c)`;
  * a sum over the lanes of a `[a,b]` vector, at `p`, is `Σ k, src (p, k)`;
  * a column kept as `[a,1]` (a shape cast of `[a]`) and spread over `[a,b]` reads the entry of its row.
-/
import Idealize.ShloMosaic.PureOps.Ideal.Laws
import Idealize.ShloMosaic.Lib.ValueIdx
import Idealize.ShloMosaic.Lib.ValueLayout
import Idealize.ShloMosaic.Lib.Pipeline.Value

noncomputable section

namespace Cert.RowOps

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A sum over the lanes (axis 1) of an `[a, b]` vector, read at row `p`: the sum of that row. -/
theorem laneSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) := by
  rw [Ideal.multiReduction_add_single]
  refine Finset.sum_congr rfl fun k _ => congrArg src (funext fun ax => Fin.ext ?_)
  match ax with
  | ⟨0, _⟩ => rfl
  | ⟨1, _⟩ => rfl

/-- A row's lane sum kept as a column and spread over `[a, c]`: at `(p, k)` it is the sum of row `p`. -/
theorem rowSum_spread_apply {a b c : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (hs : (⟨1, ![a]⟩ : Shape).ShapeCasts ⟨2, ![a, 1]⟩) (hb : (⟨2, ![a, 1]⟩ : Shape).Broadcasts ⟨2, ![a, c]⟩) (p : Fin a) (k : Fin c) :
    broadcastTo ⟨2, ![a, c]⟩ (shapeCast ⟨2, ![a, 1]⟩ (multiReduction .add [1] ⟨1, ![a]⟩ src acc h hφ hacc) hs) hb (ix2 p k)
      = ∑ i : Fin b, src (ix2 p i) := by
  rw [broadcastTo_a1_ab_apply, shapeCast_a_a1_apply, laneSum_apply]

/-- A one-row parameter `[1, b]` (shape-cast to itself) spread over `[a, b]`: at `(p, k)` it is the row's entry `k`. -/
theorem rowParam_spread_apply {a b : ℕ} (v : (⟨2, ![1, b]⟩ : Shape).Idx → α) (hs : (⟨2, ![1, b]⟩ : Shape).ShapeCasts ⟨2, ![1, b]⟩)
    (hb : (⟨2, ![1, b]⟩ : Shape).Broadcasts ⟨2, ![a, b]⟩) (p : Fin a) (k : Fin b) :
    broadcastTo ⟨2, ![a, b]⟩ (shapeCast ⟨2, ![1, b]⟩ v hs) hb (ix2 p k) = v (ix2 (0 : Fin 1) k) := by
  rw [broadcastTo_1b_ab_apply, shapeCast_self]

/-- A plain matrix product `[M,K]·[K,N]` (contracting the left operand's columns with the right operand's rows) into
    the zero accumulator, read at `(p, c)`: the sum over `k` of `lhs (p, k) · rhs (k, c)`. -/
theorem matmul_apply {M K N : ℕ} {φ₁ φ₂ : FTy}
    (wf : DotDims.WF ⟨2, ![M, K]⟩ ⟨2, ![K, N]⟩ ⟨2, ![M, N]⟩ [1] [0] [0] [1] [] [])
    (prec : Option ContractPrecision) (lhs : FVec Ideal ⟨2, ![M, K]⟩ φ₁) (rhs : FVec Ideal ⟨2, ![K, N]⟩ φ₂)
    (p : Fin M) (c : Fin N) :
    FloatOps.matmul (⟨[1], [0], [0], [1], [], [], wf⟩ : DotDims ⟨2, ![M, K]⟩ ⟨2, ![K, N]⟩ ⟨2, ![M, N]⟩) prec lhs rhs
        (constant ⟨2, ![M, N]⟩ .f32 0x00000000#32) (ix2 p c)
      = ∑ k : Fin K, lhs (ix2 p k) * rhs (ix2 k c) := by
  set D : DotDims ⟨2, ![M, K]⟩ ⟨2, ![K, N]⟩ ⟨2, ![M, N]⟩ := ⟨[1], [0], [0], [1], [], [], wf⟩ with hD
  have l0 : ∀ (i : (⟨2, ![M, N]⟩ : Shape).Idx) (q : D.contr.Idx), (D.lhsIdx i q 0).val = (i 0).val := by
    intro i q
    unfold DotDims.lhsIdx
    rw [dif_neg (show ¬(0 : Fin 2) ∈ D.lhsBatch from List.not_mem_nil), dif_pos (show (0 : Fin 2) ∈ D.lhsNonContracting from List.mem_singleton.mpr rfl)]
    rfl
  have l1 : ∀ (i : (⟨2, ![M, N]⟩ : Shape).Idx) (q : D.contr.Idx), (D.lhsIdx i q 1).val = (q ⟨0, Nat.one_pos⟩).val :=
    fun i q => D.lhsIdx_val_of_single rfl i q
  have r0 : ∀ (i : (⟨2, ![M, N]⟩ : Shape).Idx) (q : D.contr.Idx), (D.rhsIdx i q 0).val = (q ⟨0, Nat.one_pos⟩).val :=
    fun i q => D.rhsIdx_val_of_single rfl i q
  have r1 : ∀ (i : (⟨2, ![M, N]⟩ : Shape).Idx) (q : D.contr.Idx), (D.rhsIdx i q 1).val = (i 1).val := by
    intro i q
    unfold DotDims.rhsIdx
    rw [dif_neg (show ¬(1 : Fin 2) ∈ D.rhsBatch from List.not_mem_nil), dif_pos (show (1 : Fin 2) ∈ D.rhsNonContracting from List.mem_singleton.mpr rfl)]
    rfl
  rw [Ideal.matmul_constant_zero_apply, ← Equiv.sum_comp (contrEquiv1 D K rfl rfl).symm]
  refine Finset.sum_congr rfl fun k _ => ?_
  have hk := contrEquiv1_symm_val D K rfl rfl k
  have el : D.lhsIdx (ix2 p c) ((contrEquiv1 D K rfl rfl).symm k) = ix2 p k := funext fun ax => Fin.ext (by
    match ax with
    | ⟨0, _⟩ => exact l0 _ _
    | ⟨1, _⟩ => exact (l1 _ _).trans hk)
  have er : D.rhsIdx (ix2 p c) ((contrEquiv1 D K rfl rfl).symm k) = ix2 k c := funext fun ax => Fin.ext (by
    match ax with
    | ⟨0, _⟩ => exact (r0 _ _).trans hk
    | ⟨1, _⟩ => exact r1 _ _)
  rw [el, er]

end Cert.RowOps

end
-- ==== Proof.Sage.lean ====
/-
  Two layers of neighbour-mean aggregation followed by a linear combine, as functions of whole arrays.

  One layer takes node features `x : [M, K]`, a neighbour mean `agg : [M, K]`, two weight matrices
  `Wl, Wr : [K, N]` and a bias `b : [N]`, and returns at `(p, c)`

      (Σ k, agg (p, k) · Wl (k, c)  +  Σ k, x (p, k) · Wr (k, c))  +  b c,

  the first layer followed by a maximum with zero. The neighbour mean is the neighbour SUM divided by the in-degree
  clipped below at one; written either as a quotient `S / c` or as a product with the reciprocal `S · (1 / c)`.
  On the extended reals the quotient by `c ≠ 0` is the product with `c⁻¹`, and `1 / c = 1 · c⁻¹ = c⁻¹`, so the two
  spellings are one function as soon as `c ≠ 0`; a maximum with one is at least one, hence never zero. No finiteness
  of `S` or of the degree is used.
-/
import Idealize.ShloMosaic.PureOps.Ideal.Laws
import Idealize.ShloMosaic.Lib.ValueIdx
import Idealize.ShloMosaic.Lib.IdealHost
import Idealize.ShloMosaic.Lib.Pipeline.Value
import proofs.«171402_j81793357185247_1_alg».proof.Proof.LibRowOps

noncomputable section

namespace Cert.Sage

open Idealize.ShloMosaic Idealize.ShloMosaic.ValueIdx

/-- One combine step at row `p`, column `c`. -/
def combAt {M K N : ℕ} (agg x : FVec Ideal ⟨2, ![M, K]⟩ .f32) (Wl Wr : FVec Ideal ⟨2, ![K, N]⟩ .f32)
    (b : FVec Ideal ⟨1, ![N]⟩ .f32) (p : Fin M) (c : Fin N) : EReal :=
  (∑ k : Fin K, agg (ix2 p k) * Wl (ix2 k c) + ∑ k : Fin K, x (ix2 p k) * Wr (ix2 k c)) + b (ix1 c)

/-- The combine step as a whole array. -/
def comb {M K N : ℕ} (agg x : FVec Ideal ⟨2, ![M, K]⟩ .f32) (Wl Wr : FVec Ideal ⟨2, ![K, N]⟩ .f32)
    (b : FVec Ideal ⟨1, ![N]⟩ .f32) : FVec Ideal ⟨2, ![M, N]⟩ .f32 :=
  fun i => combAt agg x Wl Wr b (i 0) (i 1)

/-- The combine step followed by the maximum with (the pattern of) zero. -/
def combRelu {M K N : ℕ} (agg x : FVec Ideal ⟨2, ![M, K]⟩ .f32) (Wl Wr : FVec Ideal ⟨2, ![K, N]⟩ .f32)
    (b : FVec Ideal ⟨1, ![N]⟩ .f32) : FVec Ideal ⟨2, ![M, N]⟩ .f32 :=
  fun i => max (combAt agg x Wl Wr b (i 0) (i 1)) (Ideal.ofBits .f32 0x00000000#32)

/-- The one row of a `[1, N]` array, as an `[N]` array. -/
def row0 {N : ℕ} (B : FVec Ideal ⟨2, ![1, N]⟩ .f32) : FVec Ideal ⟨1, ![N]⟩ .f32 := fun j => B (ix2 (0 : Fin 1) (j 0))

theorem row0_apply {N : ℕ} (B : FVec Ideal ⟨2, ![1, N]⟩ .f32) (c : Fin N) : row0 B (ix1 c) = B (ix2 (0 : Fin 1) c) := rfl

theorem comb_apply {M K N : ℕ} (agg x : FVec Ideal ⟨2, ![M, K]⟩ .f32) (Wl Wr : FVec Ideal ⟨2, ![K, N]⟩ .f32)
    (b : FVec Ideal ⟨1, ![N]⟩ .f32) (p : Fin M) (c : Fin N) :
    comb agg x Wl Wr b (ix2 p c) = combAt agg x Wl Wr b p c := rfl

theorem combRelu_apply {M K N : ℕ} (agg x : FVec Ideal ⟨2, ![M, K]⟩ .f32) (Wl Wr : FVec Ideal ⟨2, ![K, N]⟩ .f32)
    (b : FVec Ideal ⟨1, ![N]⟩ .f32) (p : Fin M) (c : Fin N) :
    combRelu agg x Wl Wr b (ix2 p c) = max (combAt agg x Wl Wr b p c) (Ideal.ofBits .f32 0x00000000#32) := rfl

/-- A maximum with one is not zero. -/
theorem max_one_ne_zero (a : EReal) : max a (Ideal.ofBits .f32 0x3F800000#32) ≠ 0 := by
  rw [Ideal.ofBits_one_f32]
  exact ne_of_gt (lt_of_lt_of_le zero_lt_one (le_max_right a 1))

/-- THE LAW: the neighbour sum times the spread reciprocal of the clipped degree is the neighbour sum divided by the
    spread clipped degree, at every extended real: the divisor is a maximum with one. -/
theorem mean_eq {S₁ S₂ S₃ : Shape} (sum : FVec Ideal S₃ .f32) (deg : FVec Ideal S₁ .f32)
    (d₁ : Fin (⟨0, ![]⟩ : Shape).rank → Fin S₁.rank) (h₁ : (⟨0, ![]⟩ : Shape).BroadcastsInDim S₁ d₁)
    (d₂ : Fin S₁.rank → Fin S₂.rank) (h₂ : S₁.BroadcastsInDim S₂ d₂)
    (d₃ : Fin S₂.rank → Fin S₃.rank) (h₃ : S₂.BroadcastsInDim S₃ d₃) :
    mulf sum (broadcastInDim S₃ d₃ h₃ (broadcastInDim S₂ d₂ h₂
        (Host.divf (broadcastInDim S₁ d₁ h₁ (constant ⟨0, ![]⟩ .f32 0x3F800000#32))
          (maximumf deg (broadcastInDim S₁ d₁ h₁ (constant ⟨0, ![]⟩ .f32 0x3F800000#32))))))
      = Host.divf sum (broadcastInDim S₃ d₃ h₃ (broadcastInDim S₂ d₂ h₂
          (maximumf deg (broadcastInDim S₁ d₁ h₁ (constant ⟨0, ![]⟩ .f32 0x3F800000#32))))) := by
  funext i
  unfold mulf Host.divf
  show sum i * Ideal.div (Ideal.ofBits .f32 0x3F800000#32) (max (deg _) (Ideal.ofBits .f32 0x3F800000#32))
    = Ideal.div (sum i) (max (deg _) (Ideal.ofBits .f32 0x3F800000#32))
  rw [show Ideal.ofBits .f32 0x3F800000#32 = (1 : EReal) from Ideal.ofBits_one_f32]
  exact Ideal.mul_one_div (ne_of_gt (lt_of_lt_of_le zero_lt_one (le_max_right _ 1)))

/-- The host's plain matrix product `[M,K]·[K,N]` read at `(p, c)`: the sum over `k` of `lhs (p, k) · rhs (k, c)`. -/
theorem hostDot_apply {M K N : ℕ} {φ₁ φ₂ : FTy}
    (wf : DotDims.WF ⟨2, ![M, K]⟩ ⟨2, ![K, N]⟩ ⟨2, ![M, N]⟩ [1] [0] [0] [1] [] [])
    (prec : Option ContractPrecision) (lhs : FVec Ideal ⟨2, ![M, K]⟩ φ₁) (rhs : FVec Ideal ⟨2, ![K, N]⟩ φ₂)
    (p : Fin M) (c : Fin N) :
    Host.dotGeneral (⟨[1], [0], [0], [1], [], [], wf⟩ : DotDims ⟨2, ![M, K]⟩ ⟨2, ![K, N]⟩ ⟨2, ![M, N]⟩) prec lhs rhs (ix2 p c)
      = ∑ k : Fin K, lhs (ix2 p k) * rhs (ix2 k c) := by
  have e := Cert.RowOps.matmul_apply wf prec lhs rhs p c
  rw [Ideal.matmul_constant_zero_apply] at e
  show FloatOps.dotGeneral _ prec .single lhs rhs (ix2 p c) = _
  rw [Ideal.dotGeneral_apply]
  exact e

/-- The one row of a bias reshaped to `[1, N]` is the bias. -/
theorem row0_shapeCast {N : ℕ} (b : FVec Ideal ⟨1, ![N]⟩ .f32) (h : (⟨1, ![N]⟩ : Shape).ShapeCasts ⟨2, ![1, N]⟩) :
    row0 (shapeCast ⟨2, ![1, N]⟩ b h) = b := by
  funext j
  obtain ⟨c, rfl⟩ : ∃ c : Fin N, j = ix1 c := ⟨j 0, eq_ix1 j⟩
  show shapeCast ⟨2, ![1, N]⟩ b h (ix2 (0 : Fin 1) c) = b (ix1 c)
  refine shapeCast_apply b h _ _ ?_
  rw [Shape.rowMajor_val_two, Shape.rowMajor_val_one]
  show c.val = (0 : Fin 1).val * N + c.val
  simp

/-- A bias `[N]` spread to one row `[1, N]` and then over `[M, N]` reads, at `(p, c)`, its entry `c`. -/
theorem bias_spread_apply {M N : ℕ} (b : FVec Ideal ⟨1, ![N]⟩ .f32)
    (h₁ : (⟨1, ![N]⟩ : Shape).BroadcastsInDim ⟨2, ![1, N]⟩ ![1]) (h₂ : (⟨2, ![1, N]⟩ : Shape).BroadcastsInDim ⟨2, ![M, N]⟩ ![0, 1])
    (p : Fin M) (c : Fin N) :
    broadcastInDim ⟨2, ![M, N]⟩ ![0, 1] h₂ (broadcastInDim ⟨2, ![1, N]⟩ ![1] h₁ b) (ix2 p c) = b (ix1 c) := by
  have hc := c.isLt
  rw [broadcastInDim_apply ![0, 1] h₂ _ (ix2 p c) (ix2 (0 : Fin 1) c) (fun a => by
    match a with
    | ⟨0, _⟩ => rfl
    | ⟨1, _⟩ =>
      show c.val = if N = 1 then 0 else c.val
      split
      · omega
      · rfl)]
  exact broadcastInDim_apply ![1] h₁ b (ix2 (0 : Fin 1) c) (ix1 c) (fun a => by
    match a with
    | ⟨0, _⟩ =>
      show c.val = if N = 1 then 0 else c.val
      split
      · omega
      · rfl)

/-- THE REFERENCE'S SPELLING of the combine step — two host matrix products added, plus the bias spread to one row and
    then over the rows — is the combine step. -/
theorem hostComb_eq {M K N : ℕ}
    (wf : DotDims.WF ⟨2, ![M, K]⟩ ⟨2, ![K, N]⟩ ⟨2, ![M, N]⟩ [1] [0] [0] [1] [] [])
    (prec : Option ContractPrecision) (agg x : FVec Ideal ⟨2, ![M, K]⟩ .f32) (Wl Wr : FVec Ideal ⟨2, ![K, N]⟩ .f32)
    (b : FVec Ideal ⟨1, ![N]⟩ .f32)
    (h₁ : (⟨1, ![N]⟩ : Shape).BroadcastsInDim ⟨2, ![1, N]⟩ ![1]) (h₂ : (⟨2, ![1, N]⟩ : Shape).BroadcastsInDim ⟨2, ![M, N]⟩ ![0, 1]) :
    addf (addf (Host.dotGeneral (⟨[1], [0], [0], [1], [], [], wf⟩ : DotDims ⟨2, ![M, K]⟩ ⟨2, ![K, N]⟩ ⟨2, ![M, N]⟩) prec agg Wl)
        (Host.dotGeneral (⟨[1], [0], [0], [1], [], [], wf⟩ : DotDims ⟨2, ![M, K]⟩ ⟨2, ![K, N]⟩ ⟨2, ![M, N]⟩) prec x Wr))
      (broadcastInDim ⟨2, ![M, N]⟩ ![0, 1] h₂ (broadcastInDim ⟨2, ![1, N]⟩ ![1] h₁ b))
      = comb agg x Wl Wr b := by
  funext i
  obtain ⟨p, c, rfl⟩ : ∃ (p : Fin M) (c : Fin N), i = ix2 p c := ⟨i 0, i 1, eq_ix2 i⟩
  show (Host.dotGeneral _ prec agg Wl (ix2 p c) + Host.dotGeneral _ prec x Wr (ix2 p c))
      + broadcastInDim ⟨2, ![M, N]⟩ ![0, 1] h₂ (broadcastInDim ⟨2, ![1, N]⟩ ![1] h₁ b) (ix2 p c) = combAt agg x Wl Wr b p c
  rw [hostDot_apply, hostDot_apply, bias_spread_apply]
  rfl

/-- The same followed by the maximum with a spread zero. -/
theorem hostCombRelu_eq {M K N : ℕ}
    (wf : DotDims.WF ⟨2, ![M, K]⟩ ⟨2, ![K, N]⟩ ⟨2, ![M, N]⟩ [1] [0] [0] [1] [] [])
    (prec : Option ContractPrecision) (agg x : FVec Ideal ⟨2, ![M, K]⟩ .f32) (Wl Wr : FVec Ideal ⟨2, ![K, N]⟩ .f32)
    (b : FVec Ideal ⟨1, ![N]⟩ .f32)
    (h₁ : (⟨1, ![N]⟩ : Shape).BroadcastsInDim ⟨2, ![1, N]⟩ ![1]) (h₂ : (⟨2, ![1, N]⟩ : Shape).BroadcastsInDim ⟨2, ![M, N]⟩ ![0, 1])
    (h₀ : (⟨0, ![]⟩ : Shape).BroadcastsInDim ⟨2, ![M, N]⟩ ![]) :
    maximumf (addf (addf (Host.dotGeneral (⟨[1], [0], [0], [1], [], [], wf⟩ : DotDims ⟨2, ![M, K]⟩ ⟨2, ![K, N]⟩ ⟨2, ![M, N]⟩) prec agg Wl)
        (Host.dotGeneral (⟨[1], [0], [0], [1], [], [], wf⟩ : DotDims ⟨2, ![M, K]⟩ ⟨2, ![K, N]⟩ ⟨2, ![M, N]⟩) prec x Wr))
      (broadcastInDim ⟨2, ![M, N]⟩ ![0, 1] h₂ (broadcastInDim ⟨2, ![1, N]⟩ ![1] h₁ b)))
      (broadcastInDim ⟨2, ![M, N]⟩ ![] h₀ (constant ⟨0, ![]⟩ .f32 0x00000000#32))
      = combRelu agg x Wl Wr b := by
  rw [hostComb_eq]
  rfl

end Cert.Sage

end
-- ==== Proof.Body.lean ====
/-
  What one grid point's body leaves in its output block, read at row `p` and column `c` of the block, at the
  ideal instance. Each body loads its five blocks whole, rounds the four matrix operands to bf16 (the identity on
  extended reals), multiplies twice into a zero accumulator, adds the two products and then the one-row bias
  spread over the rows, (first layer only) takes the maximum with zero, and stores the block whole. So at `(p, c)`

      first layer :  max ((Σ k, x0 (p,k) · x2 (k,c) + Σ k, x1 (p,k) · x3 (k,c)) + x4 (0,c)) 0
      second layer:       (Σ k, x0 (p,k) · x2 (k,c) + Σ k, x1 (p,k) · x3 (k,c)) + x4 (0,c).
-/
import proofs.«171402_j81793357185247_1_alg».proof.Proof.Gen.KernelIdeal.Frame
import proofs.«171402_j81793357185247_1_alg».proof.Proof.Sage

set_option maxRecDepth 16384

noncomputable section

namespace Cert.KernelIdeal.Body

open Cert.KernelIdeal Cert.KernelIdeal.Gen Idealize.ShloMosaic Idealize.ShloMosaic.ValueIdx

theorem hz : (![0, 0] : Fin 2 → Nat) = fun _ => 0 := funext fun a => by fin_cases a <;> rfl

/-- The one whole-block store over whole-block loads leaves the payload of the loaded blocks. -/
theorem out0_eq (x0 x1 : Vec Ideal S2000x128 .f32) (x2 x3 : Vec Ideal S128x256 .f32) (x4 : Vec Ideal S1x256 .f32) :
    out0_5 (F := Ideal) x0 x1 x2 x3 x4 = k0_pay1 x0 x1 x2 x3 x4 := by
  unfold out0_5
  rw [View.canon_unit_zero hz]
  simp only [View.ld_unit_zero (S := S2000x128) hz, View.ld_unit_zero (S := S128x256) hz, View.ld_unit_zero (S := S1x256) hz]

theorem out1_eq (x0 x1 : Vec Ideal S2000x256 .f32) (x2 x3 : Vec Ideal S256x64 .f32) (x4 : Vec Ideal S1x64 .f32) :
    out1_5 (F := Ideal) x0 x1 x2 x3 x4 = k1_pay1 x0 x1 x2 x3 x4 := by
  unfold out1_5
  rw [View.canon_unit_zero hz]
  simp only [View.ld_unit_zero (S := S2000x256) hz, View.ld_unit_zero (S := S256x64) hz, View.ld_unit_zero (S := S1x64) hz]

/-- The first layer's payload at `(p, c)`. -/
theorem pay0_apply (x0 x1 : Vec Ideal S2000x128 .f32) (x2 x3 : Vec Ideal S128x256 .f32) (x4 : Vec Ideal S1x256 .f32)
    (p : Fin 2000) (c : Fin 256) :
    k0_pay1 (F := Ideal) x0 x1 x2 x3 x4 (ix2 p c)
      = max ((∑ k : Fin 128, x0 (ix2 p k) * x2 (ix2 k c) + ∑ k : Fin 128, x1 (ix2 p k) * x3 (ix2 k c)) + x4 (ix2 (0 : Fin 1) c))
          (Ideal.ofBits .f32 0x00000000#32) := by
  have eA := (Cert.RowOps.matmul_apply dot_S2000x128_S128x256_S2000x256_1_0_0_1_n_n.wf none
    (truncf .bf16 (shapeCast S2000x128 x0 shapeCasts_S2000x128_S2000x128) bitsLt_bf16_f32) (truncf .bf16 x2 bitsLt_bf16_f32) p c).trans
      (show _ = ∑ k : Fin 128, x0 (ix2 p k) * x2 (ix2 k c) by rw [shapeCast_self]; rfl)
  have eB := (Cert.RowOps.matmul_apply dot_S2000x128_S128x256_S2000x256_1_0_0_1_n_n.wf none
    (truncf .bf16 x1 bitsLt_bf16_f32) (truncf .bf16 x3 bitsLt_bf16_f32) p c).trans
      (show _ = ∑ k : Fin 128, x1 (ix2 p k) * x3 (ix2 k c) from rfl)
  have eC := Cert.RowOps.rowParam_spread_apply (a := 2000) x4 shapeCasts_S1x256_S1x256 broadcasts_S1x256_S2000x256 p c
  unfold k0_pay1
  exact congrArg₂ max (congrArg₂ (· + ·) (congrArg₂ (· + ·) eA eB) eC) rfl

/-- The second layer's payload at `(p, c)`. -/
theorem pay1_apply (x0 x1 : Vec Ideal S2000x256 .f32) (x2 x3 : Vec Ideal S256x64 .f32) (x4 : Vec Ideal S1x64 .f32)
    (p : Fin 2000) (c : Fin 64) :
    k1_pay1 (F := Ideal) x0 x1 x2 x3 x4 (ix2 p c)
      = (∑ k : Fin 256, x0 (ix2 p k) * x2 (ix2 k c) + ∑ k : Fin 256, x1 (ix2 p k) * x3 (ix2 k c)) + x4 (ix2 (0 : Fin 1) c) := by
  have eA := (Cert.RowOps.matmul_apply dot_S2000x256_S256x64_S2000x64_1_0_0_1_n_n.wf none
    (truncf .bf16 (shapeCast S2000x256 x0 shapeCasts_S2000x256_S2000x256) bitsLt_bf16_f32) (truncf .bf16 x2 bitsLt_bf16_f32) p c).trans
      (show _ = ∑ k : Fin 256, x0 (ix2 p k) * x2 (ix2 k c) by rw [shapeCast_self]; rfl)
  have eB := (Cert.RowOps.matmul_apply dot_S2000x256_S256x64_S2000x64_1_0_0_1_n_n.wf none
    (truncf .bf16 (shapeCast S2000x256 x1 shapeCasts_S2000x256_S2000x256) bitsLt_bf16_f32) (truncf .bf16 x3 bitsLt_bf16_f32) p c).trans
      (show _ = ∑ k : Fin 256, x1 (ix2 p k) * x3 (ix2 k c) by rw [shapeCast_self]; rfl)
  have eC := Cert.RowOps.rowParam_spread_apply (a := 2000) x4 shapeCasts_S1x64_S1x64 broadcasts_S1x64_S2000x64 p c
  unfold k1_pay1
  exact congrArg₂ (· + ·) (congrArg₂ (· + ·) eA eB) eC

end Cert.KernelIdeal.Body

end
-- ==== Proof.Region0.lean ====
/-
  The first region's output array as ONE function of the arrays the region finds on entry.

  The grid has 25 points; point `t` reads rows `2000·t … 2000·t + 1999` of the neighbour mean and of the node
  features (all 128 columns), the two weight matrices and the one-row bias whole, and writes rows
  `2000·t … 2000·t + 1999` of the output (all 256 columns). Row `p` of point `t`'s block is row `2000·t + p` of the
  array, so what point `t` writes back is block `t` of the whole-array combine step; the 25 blocks tile the 50000
  rows (row `r` lies in block `r / 2000`), so the array ends holding that function everywhere.
-/
import proofs.«171402_j81793357185247_1_alg».proof.Proof.Body

set_option maxRecDepth 16384

noncomputable section

namespace Cert.KernelIdeal.Region0

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The output array of the first region: the combine step with the maximum, of the entry arrays. -/
def G (c : Dev nD) : S50000x256.Idx → EReal :=
  Cert.Sage.combRelu (M := 50000) (K := 128) (N := 256) (V c main_v24) (V c main_arg0) (V c main_arg2) (V c main_arg3)
    (Cert.Sage.row0 (N := 256) (V c main_v25))

/-- The index maps over the grid: the row-blocked windows move with the point, the others stay at the origin. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row `p` of point `t`'s block, as a row of the array. -/
def row (t : Fin cfg0.N) (p : Fin 2000) : Fin 50000 :=
  ⟨t.val * 2000 + p.val, by have := t.isLt; have hN : cfg0.N = 25 := N_0; have := p.isLt; omega⟩

/-- WHAT POINT `t` WRITES BACK is block `t` of `G`. -/
theorem flushed_eq (c : Dev nD) (t : Fin cfg0.N) :
    (dat0 V c).flushed 5 t = ((cfg0.win 5).blk t).view.read (Elt Ideal) (G V c) := by
  show (cfg0.win 5).cut (grid0.coords t) ((dat0 V c).after 5 t) = _
  rw [after0_5, Body.out0_eq]
  obtain ⟨e00, e01, e10, e11, e20, e21, e30, e31, e40, e41, e50, e51⟩ := idx_facts t
  funext j
  obtain ⟨p, q, rfl⟩ : ∃ (p : Fin 2000) (q : Fin 256), j = ix2 p q := ⟨j 0, j 1, eq_ix2 j⟩
  show k0_pay1 (iblk0 V c 0 t) (iblk0 V c 1 t) (iblk0 V c 2 t) (iblk0 V c 3 t) (iblk0 V c 4 t) (ix2 p q)
    = G V c (((cfg0.win 5).blk t).view.emb (ix2 p q))
  refine (Body.pay0_apply (iblk0 V c 0 t) (iblk0 V c 1 t) (iblk0 V c 2 t) (iblk0 V c 3 t) (iblk0 V c 4 t) p q).trans ?_
  have r0 : ∀ k : Fin 128, iblk0 V c 0 t (ix2 p k) = V c main_v24 (ix2 (row t p) k) := fun k => by
    show V c main_v24 (((cfg0.win 0).blk t).view.emb (ix2 p k)) = V c main_v24 (ix2 (row t p) k)
    refine congrArg (V c main_v24) (funext fun a => Fin.ext ?_)
    match a with
    | ⟨0, _⟩ => show win0_0.index t (0 : Fin 2) * 2000 + 1 * p.val = t.val * 2000 + p.val; rw [e00]; omega
    | ⟨1, _⟩ => show win0_0.index t (1 : Fin 2) * 128 + 1 * k.val = k.val; rw [e01]; omega
  have r1 : ∀ k : Fin 128, iblk0 V c 1 t (ix2 p k) = V c main_arg0 (ix2 (row t p) k) := fun k => by
    show V c main_arg0 (((cfg0.win 1).blk t).view.emb (ix2 p k)) = V c main_arg0 (ix2 (row t p) k)
    refine congrArg (V c main_arg0) (funext fun a => Fin.ext ?_)
    match a with
    | ⟨0, _⟩ => show win0_1.index t (0 : Fin 2) * 2000 + 1 * p.val = t.val * 2000 + p.val; rw [e10]; omega
    | ⟨1, _⟩ => show win0_1.index t (1 : Fin 2) * 128 + 1 * k.val = k.val; rw [e11]; omega
  have r2 : ∀ k : Fin 128, iblk0 V c 2 t (ix2 k q) = V c main_arg2 (ix2 k q) := fun k => by
    show V c main_arg2 (((cfg0.win 2).blk t).view.emb (ix2 k q)) = V c main_arg2 (ix2 k q)
    refine congrArg (V c main_arg2) (funext fun a => Fin.ext ?_)
    match a with
    | ⟨0, _⟩ => show win0_2.index t (0 : Fin 2) * 128 + 1 * k.val = k.val; rw [e20]; omega
    | ⟨1, _⟩ => show win0_2.index t (1 : Fin 2) * 256 + 1 * q.val = q.val; rw [e21]; omega
  have r3 : ∀ k : Fin 128, iblk0 V c 3 t (ix2 k q) = V c main_arg3 (ix2 k q) := fun k => by
    show V c main_arg3 (((cfg0.win 3).blk t).view.emb (ix2 k q)) = V c main_arg3 (ix2 k q)
    refine congrArg (V c main_arg3) (funext fun a => Fin.ext ?_)
    match a with
    | ⟨0, _⟩ => show win0_3.index t (0 : Fin 2) * 128 + 1 * k.val = k.val; rw [e30]; omega
    | ⟨1, _⟩ => show win0_3.index t (1 : Fin 2) * 256 + 1 * q.val = q.val; rw [e31]; omega
  have r4 : iblk0 V c 4 t (ix2 (0 : Fin 1) q) = V c main_v25 (ix2 (0 : Fin 1) q) := by
    show V c main_v25 (((cfg0.win 4).blk t).view.emb (ix2 (0 : Fin 1) q)) = V c main_v25 (ix2 (0 : Fin 1) q)
    refine congrArg (V c main_v25) (funext fun a => Fin.ext ?_)
    match a with
    | ⟨0, _⟩ => show win0_4.index t (0 : Fin 2) * 1 + 1 * 0 = 0; rw [e40]
    | ⟨1, _⟩ => show win0_4.index t (1 : Fin 2) * 256 + 1 * q.val = q.val; rw [e41]; omega
  have r5 : ((cfg0.win 5).blk t).view.emb (ix2 p q) = ix2 (row t p) q := by
    funext a; apply Fin.ext
    match a with
    | ⟨0, _⟩ => show win0_5.index t (0 : Fin 2) * 2000 + 1 * p.val = t.val * 2000 + p.val; rw [e50]; omega
    | ⟨1, _⟩ => show win0_5.index t (1 : Fin 2) * 256 + 1 * q.val = q.val; rw [e51]; omega
  rw [r5, r4]
  simp only [r0, r1, r2, r3]
  rfl

/-- An index of the array is in point `t`'s block iff each coordinate is in the block's range on its axis. -/
theorem mem_blk (t : Fin cfg0.N) (i : S50000x256.Idx) :
    i ∈ ((cfg0.win 5).blk t).view.set ↔ ∀ a : Fin 2, win0_5.index t a * S2000x256.size a ≤ (i a).val ∧ (i a).val < win0_5.index t a * S2000x256.size a + S2000x256.size a := by
  show i ∈ ((View.whole main_v26).slice (win0_5.rect t)).set ↔ _
  rw [View.set_slice_whole, Rect.mem_set_unit]
  exact Iff.rfl

/-- THE ARRAY after the region: `G` of the entry arrays. -/
theorem final (c : Dev nD) : (dat0 V c).arrAt 5 cfg0.N = G V c :=
  (dat0 V c).arrAt_eq_of_cover 5 (G V c) (fun t _ => flushed_eq V c t) fun i => by
    have hi0 : (i 0).val < 50000 := (i 0).isLt
    have hi1 : (i 1).val < 256 := (i 1).isLt
    have hN : cfg0.N = 25 := N_0
    let t : Fin cfg0.N := ⟨(i 0).val / 2000, by omega⟩
    obtain ⟨e00, e01, e10, e11, e20, e21, e30, e31, e40, e41, e50, e51⟩ := idx_facts t
    have ht : t.val = (i 0).val / 2000 := rfl
    refine ⟨t, flush0_5 t, ?_⟩
    rw [mem_blk]
    intro a
    match a with
    | ⟨0, _⟩ => show win0_5.index t (0 : Fin 2) * 2000 ≤ (i 0).val ∧ (i 0).val < win0_5.index t (0 : Fin 2) * 2000 + 2000; rw [e50]; omega
    | ⟨1, _⟩ => show win0_5.index t (1 : Fin 2) * 256 ≤ (i 1).val ∧ (i 1).val < win0_5.index t (1 : Fin 2) * 256 + 256; rw [e51]; omega

end Cert.KernelIdeal.Region0

end
-- ==== Proof.Region1.lean ====
/-
  The second region's output array as ONE function of the arrays the region finds on entry.

  The grid has 25 points; point `t` reads rows `2000·t … 2000·t + 1999` of the neighbour mean and of the node
  features (all 256 columns), the two weight matrices and the one-row bias whole, and writes rows
  `2000·t … 2000·t + 1999` of the output (all 64 columns). Row `p` of point `t`'s block is row `2000·t + p` of the
  array, so what point `t` writes back is block `t` of the whole-array combine step; the 25 blocks tile the 50000
  rows (row `r` lies in block `r / 2000`), so the array ends holding that function everywhere.
-/
import proofs.«171402_j81793357185247_1_alg».proof.Proof.Body

set_option maxRecDepth 16384

noncomputable section

namespace Cert.KernelIdeal.Region1

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The output array of the second region: the combine step, of the entry arrays. -/
def G (c : Dev nD) : S50000x64.Idx → EReal :=
  Cert.Sage.comb (M := 50000) (K := 256) (N := 64) (V c main_v38) (V c main_v26) (V c main_arg5) (V c main_arg6)
    (Cert.Sage.row0 (N := 64) (V c main_v39))

/-- The index maps over the grid: the row-blocked windows move with the point, the others stay at the origin. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row `p` of point `t`'s block, as a row of the array. -/
def row (t : Fin cfg1.N) (p : Fin 2000) : Fin 50000 :=
  ⟨t.val * 2000 + p.val, by have := t.isLt; have hN : cfg1.N = 25 := N_1; have := p.isLt; omega⟩

/-- WHAT POINT `t` WRITES BACK is block `t` of `G`. -/
theorem flushed_eq (c : Dev nD) (t : Fin cfg1.N) :
    (dat1 V c).flushed 5 t = ((cfg1.win 5).blk t).view.read (Elt Ideal) (G V c) := by
  show (cfg1.win 5).cut (grid1.coords t) ((dat1 V c).after 5 t) = _
  rw [after1_5, Body.out1_eq]
  obtain ⟨e00, e01, e10, e11, e20, e21, e30, e31, e40, e41, e50, e51⟩ := idx_facts t
  funext j
  obtain ⟨p, q, rfl⟩ : ∃ (p : Fin 2000) (q : Fin 64), j = ix2 p q := ⟨j 0, j 1, eq_ix2 j⟩
  show k1_pay1 (iblk1 V c 0 t) (iblk1 V c 1 t) (iblk1 V c 2 t) (iblk1 V c 3 t) (iblk1 V c 4 t) (ix2 p q)
    = G V c (((cfg1.win 5).blk t).view.emb (ix2 p q))
  refine (Body.pay1_apply (iblk1 V c 0 t) (iblk1 V c 1 t) (iblk1 V c 2 t) (iblk1 V c 3 t) (iblk1 V c 4 t) p q).trans ?_
  have r0 : ∀ k : Fin 256, iblk1 V c 0 t (ix2 p k) = V c main_v38 (ix2 (row t p) k) := fun k => by
    show V c main_v38 (((cfg1.win 0).blk t).view.emb (ix2 p k)) = V c main_v38 (ix2 (row t p) k)
    refine congrArg (V c main_v38) (funext fun a => Fin.ext ?_)
    match a with
    | ⟨0, _⟩ => show win1_0.index t (0 : Fin 2) * 2000 + 1 * p.val = t.val * 2000 + p.val; rw [e00]; omega
    | ⟨1, _⟩ => show win1_0.index t (1 : Fin 2) * 256 + 1 * k.val = k.val; rw [e01]; omega
  have r1 : ∀ k : Fin 256, iblk1 V c 1 t (ix2 p k) = V c main_v26 (ix2 (row t p) k) := fun k => by
    show V c main_v26 (((cfg1.win 1).blk t).view.emb (ix2 p k)) = V c main_v26 (ix2 (row t p) k)
    refine congrArg (V c main_v26) (funext fun a => Fin.ext ?_)
    match a with
    | ⟨0, _⟩ => show win1_1.index t (0 : Fin 2) * 2000 + 1 * p.val = t.val * 2000 + p.val; rw [e10]; omega
    | ⟨1, _⟩ => show win1_1.index t (1 : Fin 2) * 256 + 1 * k.val = k.val; rw [e11]; omega
  have r2 : ∀ k : Fin 256, iblk1 V c 2 t (ix2 k q) = V c main_arg5 (ix2 k q) := fun k => by
    show V c main_arg5 (((cfg1.win 2).blk t).view.emb (ix2 k q)) = V c main_arg5 (ix2 k q)
    refine congrArg (V c main_arg5) (funext fun a => Fin.ext ?_)
    match a with
    | ⟨0, _⟩ => show win1_2.index t (0 : Fin 2) * 256 + 1 * k.val = k.val; rw [e20]; omega
    | ⟨1, _⟩ => show win1_2.index t (1 : Fin 2) * 64 + 1 * q.val = q.val; rw [e21]; omega
  have r3 : ∀ k : Fin 256, iblk1 V c 3 t (ix2 k q) = V c main_arg6 (ix2 k q) := fun k => by
    show V c main_arg6 (((cfg1.win 3).blk t).view.emb (ix2 k q)) = V c main_arg6 (ix2 k q)
    refine congrArg (V c main_arg6) (funext fun a => Fin.ext ?_)
    match a with
    | ⟨0, _⟩ => show win1_3.index t (0 : Fin 2) * 256 + 1 * k.val = k.val; rw [e30]; omega
    | ⟨1, _⟩ => show win1_3.index t (1 : Fin 2) * 64 + 1 * q.val = q.val; rw [e31]; omega
  have r4 : iblk1 V c 4 t (ix2 (0 : Fin 1) q) = V c main_v39 (ix2 (0 : Fin 1) q) := by
    show V c main_v39 (((cfg1.win 4).blk t).view.emb (ix2 (0 : Fin 1) q)) = V c main_v39 (ix2 (0 : Fin 1) q)
    refine congrArg (V c main_v39) (funext fun a => Fin.ext ?_)
    match a with
    | ⟨0, _⟩ => show win1_4.index t (0 : Fin 2) * 1 + 1 * 0 = 0; rw [e40]
    | ⟨1, _⟩ => show win1_4.index t (1 : Fin 2) * 64 + 1 * q.val = q.val; rw [e41]; omega
  have r5 : ((cfg1.win 5).blk t).view.emb (ix2 p q) = ix2 (row t p) q := by
    funext a; apply Fin.ext
    match a with
    | ⟨0, _⟩ => show win1_5.index t (0 : Fin 2) * 2000 + 1 * p.val = t.val * 2000 + p.val; rw [e50]; omega
    | ⟨1, _⟩ => show win1_5.index t (1 : Fin 2) * 64 + 1 * q.val = q.val; rw [e51]; omega
  rw [r5, r4]
  simp only [r0, r1, r2, r3]
  rfl

/-- An index of the array is in point `t`'s block iff each coordinate is in the block's range on its axis. -/
theorem mem_blk (t : Fin cfg1.N) (i : S50000x64.Idx) :
    i ∈ ((cfg1.win 5).blk t).view.set ↔ ∀ a : Fin 2, win1_5.index t a * S2000x64.size a ≤ (i a).val ∧ (i a).val < win1_5.index t a * S2000x64.size a + S2000x64.size a := by
  show i ∈ ((View.whole main_v40).slice (win1_5.rect t)).set ↔ _
  rw [View.set_slice_whole, Rect.mem_set_unit]
  exact Iff.rfl

/-- THE ARRAY after the region: `G` of the entry arrays. -/
theorem final (c : Dev nD) : (dat1 V c).arrAt 5 cfg1.N = G V c :=
  (dat1 V c).arrAt_eq_of_cover 5 (G V c) (fun t _ => flushed_eq V c t) fun i => by
    have hi0 : (i 0).val < 50000 := (i 0).isLt
    have hi1 : (i 1).val < 64 := (i 1).isLt
    have hN : cfg1.N = 25 := N_1
    let t : Fin cfg1.N := ⟨(i 0).val / 2000, by omega⟩
    obtain ⟨e00, e01, e10, e11, e20, e21, e30, e31, e40, e41, e50, e51⟩ := idx_facts t
    have ht : t.val = (i 0).val / 2000 := rfl
    refine ⟨t, flush1_5 t, ?_⟩
    rw [mem_blk]
    intro a
    match a with
    | ⟨0, _⟩ => show win1_5.index t (0 : Fin 2) * 2000 ≤ (i 0).val ∧ (i 0).val < win1_5.index t (0 : Fin 2) * 2000 + 2000; rw [e50]; omega
    | ⟨1, _⟩ => show win1_5.index t (1 : Fin 2) * 64 ≤ (i 1).val ∧ (i 1).val < win1_5.index t (1 : Fin 2) * 64 + 64; rw [e51]; omega

end Cert.KernelIdeal.Region1

end
-- ==== Proof.HostK.lean ====
/-
  The host stretches of the kernel's program, read as functions of what they start from.

  Before the first region the program slices the edge list into its source row `s` and target row `d`, counts each
  node's in-degree by adding ones at the targets, clips it below at one and takes the reciprocal; gathers the rows
  of the features at the (wrapped) sources and adds them up at the targets; multiplies the sums by the reciprocal
  degree; and reshapes the bias to one row. Between the regions it does the same gather, sum and product on the
  first region's output, with the same `s`, `d` and reciprocal degree, and reshapes the second bias.
-/
import proofs.«171402_j81793357185247_1_alg».proof.Proof.Gen.KernelIdeal.Launch
import Idealize.ShloMosaic.Lib.StableHlo.Run
import Idealize.ShloMosaic.PureOps.Ideal

set_option maxRecDepth 16384

noncomputable section

namespace Cert.KernelIdeal.HostK

open Cert.KernelIdeal Cert.KernelIdeal.Gen Idealize.ShloMosaic Idealize.ShloMosaic.TcCoe Idealize.SL.Sem Idealize.ShloMosaic.StableHlo

/-- The edges' source row. -/
def srcRow (ei : IVec S2x600000 32) : IVec S600000 32 :=
  shapeCast S600000 (extractStridedSlice S1x600000 ![0, 0] ei slices_S2x600000_S1x600000_0_0) shapeCasts_S1x600000_S600000
/-- The edges' target row. -/
def dstRow (ei : IVec S2x600000 32) : IVec S600000 32 :=
  shapeCast S600000 (extractStridedSlice S1x600000 ![1, 0] ei slices_S2x600000_S1x600000_1_0) shapeCasts_S1x600000_S600000
/-- Negative sources wrapped by the row count, as a column of gather indices. -/
def wrap (s : IVec S600000 32) : IVec S600000x1 32 :=
  broadcastInDim S600000x1 ![0] bcast_S600000_S600000x1_0
    (select (cmpi .slt s (broadcastInDim S600000 ![] bcast_S_S600000 (constantI S_ 32 0#32)))
      (addi s (broadcastInDim S600000 ![] bcast_S_S600000 (constantI S_ 32 50000#32))) s)
/-- The targets as a column of scatter indices. -/
def col (d : IVec S600000 32) : IVec S600000x1 32 := broadcastInDim S600000x1 ![0] bcast_S600000_S600000x1_0 d
/-- The in-degree (ones added at the targets), clipped below at one. -/
def degMax (d : IVec S600000 32) : FVec Ideal S50000 .f32 :=
  maximumf
    (Host.scatterAdd scatter_S50000_S600000x1_S600000_n_0_0_1 (broadcastInDim S50000 ![] bcast_S_S50000 (constant S_ .f32 0x00000000#32)) (col d)
      (broadcastInDim S600000 ![] bcast_S_S600000 (constant S_ .f32 0x3F800000#32)))
    (broadcastInDim S50000 ![] bcast_S_S50000 (constant S_ .f32 0x3F800000#32))
/-- Its reciprocal, as a column. -/
def inv (d : IVec S600000 32) : FVec Ideal S50000x1 .f32 :=
  broadcastInDim S50000x1 ![0] bcast_S50000_S50000x1_0
    (Host.divf (broadcastInDim S50000 ![] bcast_S_S50000 (constant S_ .f32 0x3F800000#32)) (degMax d))
/-- The neighbour sum of 128-wide rows: rows gathered at the sources, added up at the targets. -/
def nsum1 (x : FVec Ideal S50000x128 .f32) (s d : IVec S600000 32) : FVec Ideal S50000x128 .f32 :=
  Host.scatterAdd scatter_S50000x128_S600000x1_S600000x128_1_0_0_1 (broadcastInDim S50000x128 ![] bcast_S_S50000x128 (constant S_ .f32 0x00000000#32)) (col d)
    (Host.gather gather_S50000x128_S600000x1_S600000x128_1_0_n_n_0_1_1128 x (wrap s))
/-- The neighbour sum of 256-wide rows. -/
def nsum2 (h : FVec Ideal S50000x256 .f32) (s d : IVec S600000 32) : FVec Ideal S50000x256 .f32 :=
  Host.scatterAdd scatter_S50000x256_S600000x1_S600000x256_1_0_0_1 (broadcastInDim S50000x256 ![] bcast_S_S50000x256 (constant S_ .f32 0x00000000#32)) (col d)
    (Host.gather gather_S50000x256_S600000x1_S600000x256_1_0_n_n_0_1_1256 h (wrap s))

variable (W : Valuation τ sig (Elt Ideal))

/-! ## The stretch before the first region -/

theorem pre_v1 : after (hostOps0 (F := Ideal)) W (Proc.devRef .tc main_v1) = srcRow (W (Proc.devRef .tc main_arg1)) := by
  after_results_simp <;> rfl
theorem pre_v3 : after (hostOps0 (F := Ideal)) W (Proc.devRef .tc main_v3) = dstRow (W (Proc.devRef .tc main_arg1)) := by
  after_results_simp <;> rfl
theorem pre_v12 : after (hostOps0 (F := Ideal)) W (Proc.devRef .tc main_v12) = inv (dstRow (W (Proc.devRef .tc main_arg1))) := by
  after_results_simp <;> rfl
theorem pre_v24 : after (hostOps0 (F := Ideal)) W (Proc.devRef .tc main_v24)
    = mulf (nsum1 (W (Proc.devRef .tc main_arg0)) (srcRow (W (Proc.devRef .tc main_arg1))) (dstRow (W (Proc.devRef .tc main_arg1))))
        (broadcastInDim S50000x128 ![0, 1] bcast_S50000x1_S50000x128_0_1 (inv (dstRow (W (Proc.devRef .tc main_arg1))))) := by
  after_results_simp <;> rfl
theorem pre_v25 : after (hostOps0 (F := Ideal)) W (Proc.devRef .tc main_v25) = shapeCast S1x256 (W (Proc.devRef .tc main_arg4)) shapeCasts_S256_S1x256 := by
  after_results_simp <;> rfl
theorem pre_arg0 : after (hostOps0 (F := Ideal)) W (Proc.devRef .tc main_arg0) = W (Proc.devRef .tc main_arg0) := by after_results_simp <;> rfl
theorem pre_arg2 : after (hostOps0 (F := Ideal)) W (Proc.devRef .tc main_arg2) = W (Proc.devRef .tc main_arg2) := by after_results_simp <;> rfl
theorem pre_arg3 : after (hostOps0 (F := Ideal)) W (Proc.devRef .tc main_arg3) = W (Proc.devRef .tc main_arg3) := by after_results_simp <;> rfl
theorem pre_arg5 : after (hostOps0 (F := Ideal)) W (Proc.devRef .tc main_arg5) = W (Proc.devRef .tc main_arg5) := by after_results_simp <;> rfl
theorem pre_arg6 : after (hostOps0 (F := Ideal)) W (Proc.devRef .tc main_arg6) = W (Proc.devRef .tc main_arg6) := by after_results_simp <;> rfl
theorem pre_arg7 : after (hostOps0 (F := Ideal)) W (Proc.devRef .tc main_arg7) = W (Proc.devRef .tc main_arg7) := by after_results_simp <;> rfl

/-! ## The stretch between the regions -/

theorem mid_v38 : after (hostOps1 (F := Ideal)) W (Proc.devRef .tc main_v38)
    = mulf (nsum2 (W (Proc.devRef .tc main_v26)) (W (Proc.devRef .tc main_v1)) (W (Proc.devRef .tc main_v3)))
        (broadcastInDim S50000x256 ![0, 1] bcast_S50000x1_S50000x256_0_1 (W (Proc.devRef .tc main_v12))) := by
  after_results_simp <;> rfl
theorem mid_v39 : after (hostOps1 (F := Ideal)) W (Proc.devRef .tc main_v39) = shapeCast S1x64 (W (Proc.devRef .tc main_arg7)) shapeCasts_S64_S1x64 := by
  after_results_simp <;> rfl
theorem mid_v26 : after (hostOps1 (F := Ideal)) W (Proc.devRef .tc main_v26) = W (Proc.devRef .tc main_v26) := by after_results_simp <;> rfl
theorem mid_arg5 : after (hostOps1 (F := Ideal)) W (Proc.devRef .tc main_arg5) = W (Proc.devRef .tc main_arg5) := by after_results_simp <;> rfl
theorem mid_arg6 : after (hostOps1 (F := Ideal)) W (Proc.devRef .tc main_arg6) = W (Proc.devRef .tc main_arg6) := by after_results_simp <;> rfl

end Cert.KernelIdeal.HostK

end
-- ==== Proof.KValue.lean ====
/-
  The kernel program's result as ONE function of its arguments.

  The result array is the second region's output, a combine step of the arrays that region finds on entry; those are
  what the host stretch between the regions leaves (the neighbour mean of the first region's output, that output
  itself, two weights and the reshaped bias) over what the first region leaves (its own combine step, with the
  maximum, of what the first host stretch computed from the arguments). Buffers that a region does not own, and
  buffers a stretch does not write, are read back unchanged.
-/
import proofs.«171402_j81793357185247_1_alg».proof.Proof.KRun
import proofs.«171402_j81793357185247_1_alg».proof.Proof.Region0
import proofs.«171402_j81793357185247_1_alg».proof.Proof.Region1
import proofs.«171402_j81793357185247_1_alg».proof.Proof.HostK

set_option maxRecDepth 16384

noncomputable section

namespace Cert.KernelIdeal.KValue

open Cert.KernelIdeal Cert.KernelIdeal.Gen Cert.KernelIdeal.HostK
open Idealize.ShloMosaic Idealize.ShloMosaic.TcCoe Idealize.ShloMosaic.ValueIdx Idealize.SL.Sem

/-- The hidden layer, in the kernel's spelling: the neighbour sum TIMES the spread reciprocal degree, combined, clipped at zero. -/
def hidden (x : FVec Ideal S50000x128 .f32) (ei : IVec S2x600000 32) (W1l W1r : FVec Ideal S128x256 .f32)
    (b1 : FVec Ideal S256 .f32) : FVec Ideal S50000x256 .f32 :=
  Cert.Sage.combRelu (M := 50000) (K := 128) (N := 256)
    (mulf (nsum1 x (srcRow ei) (dstRow ei)) (broadcastInDim S50000x128 ![0, 1] bcast_S50000x1_S50000x128_0_1 (inv (dstRow ei))))
    x W1l W1r b1

/-- The output layer over a hidden layer `h`, in the kernel's spelling. -/
def outOf (h : FVec Ideal S50000x256 .f32) (ei : IVec S2x600000 32) (W2l W2r : FVec Ideal S256x64 .f32)
    (b2 : FVec Ideal S64 .f32) : FVec Ideal S50000x64 .f32 :=
  Cert.Sage.comb (M := 50000) (K := 256) (N := 64)
    (mulf (nsum2 h (srcRow ei) (dstRow ei)) (broadcastInDim S50000x256 ![0, 1] bcast_S50000x1_S50000x256_0_1 (inv (dstRow ei))))
    h W2l W2r b2

variable (m : (ℓ : Loc nD τ sig) → Buf (Elt Ideal) ℓ) (ρ : Dev nD → PrngReg)

/-- What the first region leaves in its output array, of the arguments. -/
theorem hidden_eq (c : Dev nD) :
    W2 m ρ c (Proc.devRef .tc main_v26)
      = hidden (m ((c : Thread nD τ).loc main_arg0)) (m ((c : Thread nD τ).loc main_arg1)) (m ((c : Thread nD τ).loc main_arg2))
          (m ((c : Thread nD τ).loc main_arg3)) (m ((c : Thread nD τ).loc main_arg4)) := by
  have e24 := pre_v24 (W0 m ρ c)
  have e0 := pre_arg0 (W0 m ρ c)
  have e2 := pre_arg2 (W0 m ρ c)
  have e3 := pre_arg3 (W0 m ρ c)
  have e25 := pre_v25 (W0 m ρ c)
  refine (W2_arr m ρ c 5).trans ((Region0.final (V1 m ρ) c).trans ?_)
  unfold Region0.G hidden
  show Cert.Sage.combRelu (M := 50000) (K := 128) (N := 256)
      (StableHlo.after (hostOps0 (F := Ideal)) (W0 m ρ c) (Proc.devRef .tc main_v24))
      (StableHlo.after (hostOps0 (F := Ideal)) (W0 m ρ c) (Proc.devRef .tc main_arg0))
      (StableHlo.after (hostOps0 (F := Ideal)) (W0 m ρ c) (Proc.devRef .tc main_arg2))
      (StableHlo.after (hostOps0 (F := Ideal)) (W0 m ρ c) (Proc.devRef .tc main_arg3))
      (Cert.Sage.row0 (N := 256) (StableHlo.after (hostOps0 (F := Ideal)) (W0 m ρ c) (Proc.devRef .tc main_v25))) = _
  rw [e24, e0, e2, e3, e25, Cert.Sage.row0_shapeCast]

/-- What the second region leaves in the result array, of the arguments. -/
theorem out_eq (c : Dev nD) :
    W4 m ρ c (Proc.devRef .tc main_v40)
      = outOf (hidden (m ((c : Thread nD τ).loc main_arg0)) (m ((c : Thread nD τ).loc main_arg1)) (m ((c : Thread nD τ).loc main_arg2))
            (m ((c : Thread nD τ).loc main_arg3)) (m ((c : Thread nD τ).loc main_arg4)))
          (m ((c : Thread nD τ).loc main_arg1)) (m ((c : Thread nD τ).loc main_arg5)) (m ((c : Thread nD τ).loc main_arg6))
          (m ((c : Thread nD τ).loc main_arg7)) := by
  have e38 := mid_v38 (W2 m ρ c)
  have e26 := mid_v26 (W2 m ρ c)
  have e5 := mid_arg5 (W2 m ρ c)
  have e6 := mid_arg6 (W2 m ρ c)
  have e39 := mid_v39 (W2 m ρ c)
  have w1 : W2 m ρ c (Proc.devRef .tc main_v1) = srcRow (m ((c : Thread nD τ).loc main_arg1)) :=
    (W2_of_ne m ρ c main_v1 (by decide)).trans (pre_v1 (W0 m ρ c))
  have w3 : W2 m ρ c (Proc.devRef .tc main_v3) = dstRow (m ((c : Thread nD τ).loc main_arg1)) :=
    (W2_of_ne m ρ c main_v3 (by decide)).trans (pre_v3 (W0 m ρ c))
  have w12 : W2 m ρ c (Proc.devRef .tc main_v12) = inv (dstRow (m ((c : Thread nD τ).loc main_arg1))) :=
    (W2_of_ne m ρ c main_v12 (by decide)).trans (pre_v12 (W0 m ρ c))
  have w5 : W2 m ρ c (Proc.devRef .tc main_arg5) = m ((c : Thread nD τ).loc main_arg5) :=
    (W2_of_ne m ρ c main_arg5 (by decide)).trans (pre_arg5 (W0 m ρ c))
  have w6 : W2 m ρ c (Proc.devRef .tc main_arg6) = m ((c : Thread nD τ).loc main_arg6) :=
    (W2_of_ne m ρ c main_arg6 (by decide)).trans (pre_arg6 (W0 m ρ c))
  have w7 : W2 m ρ c (Proc.devRef .tc main_arg7) = m ((c : Thread nD τ).loc main_arg7) :=
    (W2_of_ne m ρ c main_arg7 (by decide)).trans (pre_arg7 (W0 m ρ c))
  refine (W4_arr m ρ c 5).trans ((Region1.final (V3 m ρ) c).trans ?_)
  unfold Region1.G outOf
  show Cert.Sage.comb (M := 50000) (K := 256) (N := 64)
      (StableHlo.after (hostOps1 (F := Ideal)) (W2 m ρ c) (Proc.devRef .tc main_v38))
      (StableHlo.after (hostOps1 (F := Ideal)) (W2 m ρ c) (Proc.devRef .tc main_v26))
      (StableHlo.after (hostOps1 (F := Ideal)) (W2 m ρ c) (Proc.devRef .tc main_arg5))
      (StableHlo.after (hostOps1 (F := Ideal)) (W2 m ρ c) (Proc.devRef .tc main_arg6))
      (Cert.Sage.row0 (N := 64) (StableHlo.after (hostOps1 (F := Ideal)) (W2 m ρ c) (Proc.devRef .tc main_v39))) = _
  rw [e38, e26, e5, e6, e39, w1, w3, w12, w5, w6, w7, hidden_eq m ρ c, Cert.Sage.row0_shapeCast]

/-- THE KERNEL PROGRAM'S RUN with its result named: every weakly fair execution terminates, nothing faulting, the result
    array at the two layers of the arguments, the arguments unchanged. -/
theorem run : θ_run defs (onTc (τ := τ) (main (F := Ideal))) ⟨m, fun _ => 0, ρ⟩ (fun r => ∀ c : Dev nD,
      r.2.mem ((c.tc : Thread nD τ).loc main_v40)
        = outOf (hidden (m ((c : Thread nD τ).loc main_arg0)) (m ((c : Thread nD τ).loc main_arg1)) (m ((c : Thread nD τ).loc main_arg2))
              (m ((c : Thread nD τ).loc main_arg3)) (m ((c : Thread nD τ).loc main_arg4)))
            (m ((c : Thread nD τ).loc main_arg1)) (m ((c : Thread nD τ).loc main_arg5)) (m ((c : Thread nD τ).loc main_arg6))
            (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (out_eq m ρ c), (h c).2⟩) (Cert.KernelIdeal.Named.run m ρ)

end Cert.KernelIdeal.KValue

end
-- ==== Proof.RefSide.lean ====
/-
  The reference program's result as the same two layers.

  The reference gathers, sums and counts exactly as the kernel's host stretches do, but DIVIDES each neighbour sum by
  the spread clipped degree, and spells each combine step as two host matrix products added, plus the bias spread to
  one row and then over the rows (the first layer followed by a maximum with a spread zero). The generated run states
  the result as one composed term of the arguments; here that term is folded into named stages and each layer is
  identified with the combine step of the specification.
-/
import proofs.«171402_j81793357185247_1_alg».proof.Proof.Gen.ReferenceIdeal.Run
import proofs.«171402_j81793357185247_1_alg».proof.Proof.Sage

set_option maxRecDepth 16384

noncomputable section

namespace Cert.ReferenceIdeal.RefValue

open Cert.ReferenceIdeal Cert.ReferenceIdeal.Gen Idealize.ShloMosaic Idealize.ShloMosaic.TcCoe Idealize.SL.Sem

/-- The edges' source row. -/
def srcRow (ei : IVec S2x600000 32) : IVec S600000 32 :=
  shapeCast S600000 (extractStridedSlice S1x600000 ![0, 0] ei slices_S2x600000_S1x600000_0_0) shapeCasts_S1x600000_S600000
/-- The edges' target row. -/
def dstRow (ei : IVec S2x600000 32) : IVec S600000 32 :=
  shapeCast S600000 (extractStridedSlice S1x600000 ![1, 0] ei slices_S2x600000_S1x600000_1_0) shapeCasts_S1x600000_S600000
/-- Negative sources wrapped by the row count, as a column of gather indices. -/
def wrap (s : IVec S600000 32) : IVec S600000x1 32 :=
  broadcastInDim S600000x1 ![0] bcast_S600000_S600000x1_0
    (select (cmpi .slt s (broadcastInDim S600000 ![] bcast_S_S600000 (constantI S_ 32 0#32)))
      (addi s (broadcastInDim S600000 ![] bcast_S_S600000 (constantI S_ 32 50000#32))) s)
/-- The targets as a column of scatter indices. -/
def col (d : IVec S600000 32) : IVec S600000x1 32 := broadcastInDim S600000x1 ![0] bcast_S600000_S600000x1_0 d
/-- The in-degree (ones added at the targets), clipped below at one. -/
def degMax (d : IVec S600000 32) : FVec Ideal S50000 .f32 :=
  maximumf
    (Host.scatterAdd scatter_S50000_S600000x1_S600000_n_0_0_1 (broadcastInDim S50000 ![] bcast_S_S50000 (constant S_ .f32 0x00000000#32)) (col d)
      (broadcastInDim S600000 ![] bcast_S_S600000 (constant S_ .f32 0x3F800000#32)))
    (broadcastInDim S50000 ![] bcast_S_S50000 (constant S_ .f32 0x3F800000#32))
/-- The neighbour sum of 128-wide rows. -/
def nsum1 (x : FVec Ideal S50000x128 .f32) (s d : IVec S600000 32) : FVec Ideal S50000x128 .f32 :=
  Host.scatterAdd scatter_S50000x128_S600000x1_S600000x128_1_0_0_1 (broadcastInDim S50000x128 ![] bcast_S_S50000x128 (constant S_ .f32 0x00000000#32)) (col d)
    (Host.gather gather_S50000x128_S600000x1_S600000x128_1_0_n_n_0_1_1128 x (wrap s))
/-- The neighbour sum of 256-wide rows. -/
def nsum2 (h : FVec Ideal S50000x256 .f32) (s d : IVec S600000 32) : FVec Ideal S50000x256 .f32 :=
  Host.scatterAdd scatter_S50000x256_S600000x1_S600000x256_1_0_0_1 (broadcastInDim S50000x256 ![] bcast_S_S50000x256 (constant S_ .f32 0x00000000#32)) (col d)
    (Host.gather gather_S50000x256_S600000x1_S600000x256_1_0_n_n_0_1_1256 h (wrap s))
/-- The neighbour mean of 128-wide rows: the sum DIVIDED by the spread clipped degree. -/
def mean1 (x : FVec Ideal S50000x128 .f32) (ei : IVec S2x600000 32) : FVec Ideal S50000x128 .f32 :=
  Host.divf (nsum1 x (srcRow ei) (dstRow ei))
    (broadcastInDim S50000x128 ![0, 1] bcast_S50000x1_S50000x128_0_1 (broadcastInDim S50000x1 ![0] bcast_S50000_S50000x1_0 (degMax (dstRow ei))))
/-- The neighbour mean of 256-wide rows. -/
def mean2 (h : FVec Ideal S50000x256 .f32) (ei : IVec S2x600000 32) : FVec Ideal S50000x256 .f32 :=
  Host.divf (nsum2 h (srcRow ei) (dstRow ei))
    (broadcastInDim S50000x256 ![0, 1] bcast_S50000x1_S50000x256_0_1 (broadcastInDim S50000x1 ![0] bcast_S50000_S50000x1_0 (degMax (dstRow ei))))
/-- The first combine step as the reference spells it. -/
def layer1 (agg x : FVec Ideal S50000x128 .f32) (Wl Wr : FVec Ideal S128x256 .f32) (b : FVec Ideal S256 .f32) : FVec Ideal S50000x256 .f32 :=
  maximumf
    (addf (addf (Host.dotGeneral dot_S50000x128_S128x256_S50000x256_1_0_0_1_n_n none agg Wl)
        (Host.dotGeneral dot_S50000x128_S128x256_S50000x256_1_0_0_1_n_n none x Wr))
      (broadcastInDim S50000x256 ![0, 1] bcast_S1x256_S50000x256_0_1 (broadcastInDim S1x256 ![1] bcast_S256_S1x256_1 b)))
    (broadcastInDim S50000x256 ![] bcast_S_S50000x256 (constant S_ .f32 0x00000000#32))
/-- The second combine step as the reference spells it. -/
def layer2 (agg h : FVec Ideal S50000x256 .f32) (Wl Wr : FVec Ideal S256x64 .f32) (b : FVec Ideal S64 .f32) : FVec Ideal S50000x64 .f32 :=
  addf (addf (Host.dotGeneral dot_S50000x256_S256x64_S50000x64_1_0_0_1_n_n none agg Wl)
      (Host.dotGeneral dot_S50000x256_S256x64_S50000x64_1_0_0_1_n_n none h Wr))
    (broadcastInDim S50000x64 ![0, 1] bcast_S1x64_S50000x64_0_1 (broadcastInDim S1x64 ![1] bcast_S64_S1x64_1 b))

theorem layer1_eq (agg x : FVec Ideal S50000x128 .f32) (Wl Wr : FVec Ideal S128x256 .f32) (b : FVec Ideal S256 .f32) :
    layer1 agg x Wl Wr b = Cert.Sage.combRelu (M := 50000) (K := 128) (N := 256) agg x Wl Wr b :=
  Cert.Sage.hostCombRelu_eq dot_S50000x128_S128x256_S50000x256_1_0_0_1_n_n.wf none agg x Wl Wr b
    bcast_S256_S1x256_1 bcast_S1x256_S50000x256_0_1 bcast_S_S50000x256

theorem layer2_eq (agg h : FVec Ideal S50000x256 .f32) (Wl Wr : FVec Ideal S256x64 .f32) (b : FVec Ideal S64 .f32) :
    layer2 agg h Wl Wr b = Cert.Sage.comb (M := 50000) (K := 256) (N := 64) agg h Wl Wr b :=
  Cert.Sage.hostComb_eq dot_S50000x256_S256x64_S50000x64_1_0_0_1_n_n.wf none agg h Wl Wr b
    bcast_S64_S1x64_1 bcast_S1x64_S50000x64_0_1

/-- The hidden layer, in the reference's spelling of the mean. -/
def hidden (x : FVec Ideal S50000x128 .f32) (ei : IVec S2x600000 32) (W1l W1r : FVec Ideal S128x256 .f32)
    (b1 : FVec Ideal S256 .f32) : FVec Ideal S50000x256 .f32 :=
  Cert.Sage.combRelu (M := 50000) (K := 128) (N := 256) (mean1 x ei) x W1l W1r b1

/-- The output layer over a hidden layer `h`, in the reference's spelling of the mean. -/
def outOf (h : FVec Ideal S50000x256 .f32) (ei : IVec S2x600000 32) (W2l W2r : FVec Ideal S256x64 .f32)
    (b2 : FVec Ideal S64 .f32) : FVec Ideal S50000x64 .f32 :=
  Cert.Sage.comb (M := 50000) (K := 256) (N := 64) (mean2 h ei) h W2l W2r b2

variable (m : (ℓ : Loc nD τ sig) → Buf (Elt Ideal) ℓ)

/-- The run's composed term, folded into the stages. -/
theorem res_fold (c : Dev nD) :
    Cert.ReferenceIdeal.Value.res_main_v58 (F := Ideal) m c
      = layer2 (mean2 (layer1 (mean1 (m ((c.tc : Thread nD τ).loc main_arg0)) (m ((c.tc : Thread nD τ).loc main_arg1)))
              (m ((c.tc : Thread nD τ).loc main_arg0)) (m ((c.tc : Thread nD τ).loc main_arg2)) (m ((c.tc : Thread nD τ).loc main_arg3))
              (m ((c.tc : Thread nD τ).loc main_arg4))) (m ((c.tc : Thread nD τ).loc main_arg1)))
          (layer1 (mean1 (m ((c.tc : Thread nD τ).loc main_arg0)) (m ((c.tc : Thread nD τ).loc main_arg1)))
              (m ((c.tc : Thread nD τ).loc main_arg0)) (m ((c.tc : Thread nD τ).loc main_arg2)) (m ((c.tc : Thread nD τ).loc main_arg3))
              (m ((c.tc : Thread nD τ).loc main_arg4)))
          (m ((c.tc : Thread nD τ).loc main_arg5)) (m ((c.tc : Thread nD τ).loc main_arg6)) (m ((c.tc : Thread nD τ).loc main_arg7)) := by
  unfold Cert.ReferenceIdeal.Value.res_main_v58 layer2 mean2 layer1 mean1 nsum1 nsum2 degMax col wrap srcRow dstRow
  rfl

/-- THE REFERENCE'S RESULT is the two layers of the arguments. -/
theorem res_eq (c : Dev nD) :
    Cert.ReferenceIdeal.Value.res_main_v58 (F := Ideal) m c
      = outOf (hidden (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)))
          (m ((c.tc : Thread nD τ).loc main_arg1)) (m ((c.tc : Thread nD τ).loc main_arg5)) (m ((c.tc : Thread nD τ).loc main_arg6))
          (m ((c.tc : Thread nD τ).loc main_arg7)) := by
  rw [res_fold, layer2_eq, layer1_eq]
  rfl

end Cert.ReferenceIdeal.RefValue

end
-- ==== Proof.Bridge.lean ====
/-
  The kernel's two layers are the reference's two layers.

  They differ only in the neighbour mean: the kernel multiplies the neighbour sum by the spread reciprocal of the
  clipped in-degree, the reference divides it by the spread clipped in-degree. The clipped degree is a maximum with
  one, so it is not zero, and on the extended reals `S · (1 / c) = S / c` for every `S` as soon as `c ≠ 0`. The
  gather, the sums and the degree count are the same operations on both sides.
-/
import proofs.«171402_j81793357185247_1_alg».proof.Proof.KValue
import proofs.«171402_j81793357185247_1_alg».proof.Proof.RefSide

set_option maxRecDepth 16384

noncomputable section

namespace Cert.Bridge

open Idealize.ShloMosaic

/-- The hidden layer: the product with the reciprocal degree is the quotient by the degree. -/
theorem hidden_eq (x : FVec Ideal Cert.KernelIdeal.S50000x128 .f32) (ei : IVec Cert.KernelIdeal.S2x600000 32)
    (W1l W1r : FVec Ideal Cert.KernelIdeal.S128x256 .f32) (b1 : FVec Ideal Cert.KernelIdeal.S256 .f32) :
    Cert.KernelIdeal.KValue.hidden x ei W1l W1r b1 = Cert.ReferenceIdeal.RefValue.hidden x ei W1l W1r b1 := by
  unfold Cert.KernelIdeal.KValue.hidden Cert.ReferenceIdeal.RefValue.hidden Cert.ReferenceIdeal.RefValue.mean1
    Cert.KernelIdeal.HostK.inv Cert.KernelIdeal.HostK.degMax
  rw [Cert.Sage.mean_eq]
  rfl

/-- The output layer over any hidden layer, likewise. -/
theorem out_eq (h : FVec Ideal Cert.KernelIdeal.S50000x256 .f32) (ei : IVec Cert.KernelIdeal.S2x600000 32)
    (W2l W2r : FVec Ideal Cert.KernelIdeal.S256x64 .f32) (b2 : FVec Ideal Cert.KernelIdeal.S64 .f32) :
    Cert.KernelIdeal.KValue.outOf h ei W2l W2r b2 = Cert.ReferenceIdeal.RefValue.outOf h ei W2l W2r b2 := by
  unfold Cert.KernelIdeal.KValue.outOf Cert.ReferenceIdeal.RefValue.outOf Cert.ReferenceIdeal.RefValue.mean2
    Cert.KernelIdeal.HostK.inv Cert.KernelIdeal.HostK.degMax
  rw [Cert.Sage.mean_eq]
  rfl

end Cert.Bridge

end
-- ==== Proof.lean ====
/-
  Two layers of neighbour-mean aggregation with a linear combine (the first clipped at zero) on 50000 nodes and 600000
  edges: the kernel program against its array reference, over the extended reals.

  The kernel program computes the neighbour sums and the in-degree on the host and runs each layer's combine step
  `mean · Wl + x · Wr + b` as a grid of 25 row blocks of 2000 rows; the reference does everything on whole arrays.
  Each region's output array is one whole-array function of the arrays it finds on entry (its 25 blocks tile the
  rows), the bf16 roundings of the matrix operands are the identity on extended reals, and a block matrix product into
  a zero accumulator is the plain sum over the contracted index, as the host's product is. The one difference in
  value is the mean: the kernel multiplies the neighbour sum by `1 / max(deg, 1)`, the reference divides it by
  `max(deg, 1)`; a maximum with one is never zero, and then the two agree at every extended real, infinite sums
  included. So the precondition is not used for the value, and the idealization rewrote nothing (`preserves` is `True`).
-/
import proofs.«171402_j81793357185247_1_alg».proof.Defs
import proofs.«171402_j81793357185247_1_alg».proof.Proof.Gen.Kernel
import proofs.«171402_j81793357185247_1_alg».proof.Proof.Gen.Kernel.Skeleton
import proofs.«171402_j81793357185247_1_alg».proof.Proof.Gen.Kernel.Launch
import proofs.«171402_j81793357185247_1_alg».proof.Proof.Gen.Kernel.Points
import proofs.«171402_j81793357185247_1_alg».proof.Proof.Gen.Kernel.Frame
import proofs.«171402_j81793357185247_1_alg».proof.Proof.Gen.KernelIdeal
import proofs.«171402_j81793357185247_1_alg».proof.Proof.Gen.KernelIdeal.Skeleton
import proofs.«171402_j81793357185247_1_alg».proof.Proof.Gen.KernelIdeal.Launch
import proofs.«171402_j81793357185247_1_alg».proof.Proof.Gen.KernelIdeal.Points
import proofs.«171402_j81793357185247_1_alg».proof.Proof.Gen.KernelIdeal.Frame
import proofs.«171402_j81793357185247_1_alg».proof.Proof.Gen.ReferenceIdeal
import proofs.«171402_j81793357185247_1_alg».proof.Proof.Gen.Pre_finite_inputs
import proofs.«171402_j81793357185247_1_alg».proof.Proof.Gen.ReferenceIdeal.Run
import proofs.«171402_j81793357185247_1_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the result array at the two layers of arguments that agree: the kernel's spelling of the mean
    (a product with the reciprocal degree) and the reference's (a quotient by the degree) are one function. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7⟩ := hagree c
  rw [Cert.ReferenceIdeal.RefValue.res_eq, a0, a1, a2, a3, a4, a5, a6, a7, Cert.Bridge.hidden_eq, Cert.Bridge.out_eq]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
